-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S600000 32) (main_arg2 : IVec S600000 32) (main_arg3 : FVec F S256x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S128x256 : Shape := ⟨2, ![128, 256]⟩
abbrev S1x256 : Shape := ⟨2, ![1, 256]⟩
abbrev S1x128 : Shape := ⟨2, ![1, 128]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 38
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S128x256, .f32⟩
  | .hbm, ⟨34, _⟩ => ⟨S128x256, .f32⟩
  | .hbm, ⟨35, _⟩ => ⟨S1x256, .f32⟩
  | .hbm, ⟨36, _⟩ => ⟨S1x128, .f32⟩
  | .hbm, ⟨37, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S256x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  slices_S256x256_S128x256_0_0 : S256x256.Slices ![0, 0] S128x256
  slices_S256x256_S128x256_128_0 : S256x256.Slices ![128, 0] S128x256
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S600000, .i32⟩
  | .hbm, ⟨9, _⟩ => ⟨S600000, .i1⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000x1, .i32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S50000x256, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowMean.lean ====
/-
  Row blocks (`Cert.RowBlock.IsRows`) under two more operations at the exact instance, and the column layouts they read.

  THE QUOTIENT BY A COLUMN. A matrix divided, row by row, by a column `d` whose entries are never zero is the
  matrix multiplied, row by row, by the column of reciprocals `1/d`. On the extended reals the quotient by
  `y ≠ 0` is the product with `y⁻¹`, and `1/y` is `1·y⁻¹ = y⁻¹`; nothing is asked of `x` and `y` may be
  infinite (then `y⁻¹ = 0` on both sides). Row `r` of either side reads row `r` of the matrix and entry `r` of
  the column only, so row blocks go to row blocks.

  A PRODUCT WITH TWO MATRICES SIDE BY SIDE. `[X | Y]·W = X·W_top + Y·W_bot`: the sum over the `K + K` shared
  columns splits into the sum over the first `K` and the sum over the last `K`, a fact of any commutative
  monoid, so it holds at the infinities too. Row `r` of the product reads row `r` of `X` and of `Y` only.
-/
import proofs.«126599_j50448685859138_1_alg».proof.Proof.LibRowBlock

noncomputable section

namespace Cert.RowBlock

open Idealize.ShloMosaic Idealize.ShloMosaic.ValueIdx

/-! ## A column read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` laid as a column and then repeated over `b` columns reads, at `(r, j)`, the vector at `r`. -/
theorem broadcastInDim_col_apply {α : Type} {a b : ℕ} (v : (⟨1, ![a]⟩ : Shape).Idx → α)
    (h1 : (⟨1, ![a]⟩ : Shape).BroadcastsInDim ⟨2, ![a, 1]⟩ ![0]) (h2 : (⟨2, ![a, 1]⟩ : Shape).BroadcastsInDim ⟨2, ![a, b]⟩ ![0, 1])
    (r : Fin a) (j : Fin b) :
    broadcastInDim ⟨2, ![a, b]⟩ ![0, 1] h2 (broadcastInDim ⟨2, ![a, 1]⟩ ![0] h1 v) (ix2 r j) = v (ix1 r) := by
  refine (broadcastInDim_apply ![0, 1] h2 _ (ix2 r j) (ix2 r (0 : Fin 1)) fun ax => ?_).trans
    (broadcastInDim_apply ![0] h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

/-! ## The quotient by a column -/

/-- For a divisor that is not zero, multiplying by its reciprocal is dividing by it: both are the product with `y⁻¹`,
    at the infinities too. -/
theorem mul_one_div (x y : EReal) (hy : y ≠ 0) : x * Ideal.div 1 y = Ideal.div x y := by
  unfold Ideal.div
  rw [if_neg hy, if_neg hy, one_mul]

namespace IsRows

variable {N n B t : Nat}

/-- A matrix divided row by row by a never-zero column `d`, against its row block multiplied by the row block of the
    reciprocal column `1/d` (the reciprocals taken on the vector, then laid as a column). -/
theorem div_col {Msg : FVec Ideal ⟨2, ![N, n]⟩ .f32} {msg : FVec Ideal ⟨2, ![B, n]⟩ .f32} (H : IsRows B t Msg msg)
    (d one : FVec Ideal ⟨1, ![N]⟩ .f32) (hd : ∀ r, d r ≠ 0) (hone : ∀ r, one r = 1)
    (hc : (⟨1, ![N]⟩ : Shape).ShapeCasts ⟨2, ![N, 1]⟩) {inv : FVec Ideal ⟨2, ![B, 1]⟩ .f32}
    (Hinv : IsRows B t (shapeCast ⟨2, ![N, 1]⟩ (Host.divf one d) hc) inv)
    (h1 : (⟨1, ![N]⟩ : Shape).BroadcastsInDim ⟨2, ![N, 1]⟩ ![0]) (h2 : (⟨2, ![N, 1]⟩ : Shape).BroadcastsInDim ⟨2, ![N, n]⟩ ![0, 1])
    (hb : (⟨2, ![B, 1]⟩ : Shape).Broadcasts ⟨2, ![B, n]⟩) :
    IsRows B t (Host.divf Msg (broadcastInDim ⟨2, ![N, n]⟩ ![0, 1] h2 (broadcastInDim ⟨2, ![N, 1]⟩ ![0] h1 d)))
      (mulf msg (broadcastTo ⟨2, ![B, n]⟩ inv hb)) := by
  intro p j r hr
  show msg (ix2 p j) * broadcastTo ⟨2, ![B, n]⟩ inv hb (ix2 p j)
    = Ideal.div (Msg (ix2 r j)) (broadcastInDim ⟨2, ![N, n]⟩ ![0, 1] h2 (broadcastInDim ⟨2, ![N, 1]⟩ ![0] h1 d) (ix2 r j))
  rw [broadcastTo_a1_ab_apply, broadcastInDim_col_apply, H p j r hr, Hinv p 0 r hr, shapeCast_a_a1_apply]
  show Msg (ix2 r j) * Ideal.div (one (ix1 r)) (d (ix1 r)) = _
  rw [hone, mul_one_div _ _ (hd _)]

/-! ## A product with two matrices side by side -/

/-- Rows of `[X | Y]·W` against the row blocks' two products into zero, summed: `wt` is the first `K` rows of `W`
    and `wb` its last `K`. -/
theorem dot_concat2 {K K2 M : Nat} {φ₁ φ₂ φ₃ φ₄ : FTy} (hK : K2 = K + K)
    {X : FVec Ideal ⟨2, ![N, K]⟩ .f32} {x : FVec Ideal ⟨2, ![B, K]⟩ φ₁} (HX : IsRows B t X x)
    {Y : FVec Ideal ⟨2, ![N, K]⟩ .f32} {y : FVec Ideal ⟨2, ![B, K]⟩ φ₂} (HY : IsRows B t Y y)
    (hc : Shape.Concatenates [(⟨2, ![N, K]⟩ : Shape), ⟨2, ![N, K]⟩] ⟨2, ![N, K2]⟩ 1)
    (D : DotDims ⟨2, ![N, K2]⟩ ⟨2, ![K2, M]⟩ ⟨2, ![N, M]⟩) (d : DotDims ⟨2, ![B, K]⟩ ⟨2, ![K, M]⟩ ⟨2, ![B, M]⟩)
    (hD : Plain D 1 0 0 1) (hd : Plain d 1 0 0 1)
    (W : FVec Ideal ⟨2, ![K2, M]⟩ .f32) (wt : FVec Ideal ⟨2, ![K, M]⟩ φ₃) (wb : FVec Ideal ⟨2, ![K, M]⟩ φ₄)
    (ht : ∀ (k : Fin K) (k' : Fin K2) (j : Fin M), k'.val = k.val → wt (ix2 k j) = W (ix2 k' j))
    (hb : ∀ (k : Fin K) (k' : Fin K2) (j : Fin M), k'.val = K + k.val → wb (ix2 k j) = W (ix2 k' j)) :
    IsRows B t (Host.dotGeneral D none (concatenate ⟨2, ![N, K2]⟩ 1 [⟨⟨2, ![N, K]⟩, X⟩, ⟨⟨2, ![N, K]⟩, Y⟩] hc) W)
      (addf (matmul d none x wt (constant ⟨2, ![B, M]⟩ .f32 0x00000000#32))
        (matmul d none y wb (constant ⟨2, ![B, M]⟩ .f32 0x00000000#32))) := by
  subst hK
  intro p j r hr
  rw [addf_apply]
  simp only [Host.dotGeneral, matmul]
  rw [Ideal.matmul_constant_zero_apply, Ideal.matmul_constant_zero_apply, Ideal.dotGeneral_apply,
    dot_plain_sum d hd, dot_plain_sum d hd, dot_plain_sum D hD, Fin.sum_univ_add]
  refine congrArg₂ (· + ·) (Finset.sum_congr rfl fun k _ => ?_) (Finset.sum_congr rfl fun k _ => ?_)
  · rw [HX p k r hr, ht k (Fin.castAdd K k) j rfl,
      concat_cols_apply [⟨⟨2, ![N, K]⟩, X⟩, ⟨⟨2, ![N, K]⟩, Y⟩] hc 0 (by simp) X rfl 0 rfl r (Fin.castAdd K k) k (Nat.zero_add _)]
  · rw [HY p k r hr, hb k (Fin.natAdd K k) j rfl,
      concat_cols_apply [⟨⟨2, ![N, K]⟩, X⟩, ⟨⟨2, ![N, K]⟩, Y⟩] hc 1 (by simp) Y rfl K rfl r (Fin.natAdd K k) k rfl]

end IsRows

end Cert.RowBlock

end
-- ==== Proof.Layer.lean ====
/-
  One layer of mean aggregation over a graph followed by two affine maps and a rectifier, as ONE function of the arrays.

  Nodes are the 50000 rows of `h` (128 features each); edge `e` of the 600000 carries row `src e` of `h` to node `dst e`.
    * `msgSum h src dst`: row `v` is the sum, over the edges arriving at `v`, of the rows of `h` they carry (a negative
      source index counted from the end, as array indexing does);
    * `degMax dst`: entry `v` is `max (number of edges arriving at v) 1`, so never zero;
    * `layerOut h msg dmax W1 b1 W2 b2`: with `mean = msg / dmax` row by row,
      `max (([h | mean]·W1 + b1)·W2 + b2) 0`.
  The three are spelt operation for operation as the reference program computes them, so that its run's result is
  `layerOut h (msgSum h src dst) (degMax dst) W1 b1 W2 b2` by unfolding.
-/
import proofs.«126599_j50448685859138_1_alg».proof.Proof.Gen.ReferenceIdeal
import Idealize.ShloMosaic.PureOps.Ideal

noncomputable section

namespace Cert.Layer

open Cert.ReferenceIdeal Cert.ReferenceIdeal.Gen Idealize.ShloMosaic

/-- Row `v`: the sum of the rows `h (src e)` over the edges `e` with `dst e = v`. -/
def msgSum (h : FVec Ideal S50000x128 .f32) (src dst : IVec S600000 32) : FVec Ideal S50000x128 .f32 :=
  Host.scatterAdd scatter_S50000x128_S600000x1_S600000x128_1_0_0_1 (broadcastInDim S50000x128 ![] bcast_S_S50000x128 (constant (F := Ideal) S_ .f32 0x00000000#32)) (broadcastInDim S600000x1 ![0] bcast_S600000_S600000x1_0 dst) (Host.gather gather_S50000x128_S600000x1_S600000x128_1_0_n_n_0_1_1128 h (broadcastInDim S600000x1 ![0] bcast_S600000_S600000x1_0 (select (cmpi .slt src (broadcastInDim S600000 ![] bcast_S_S600000 (constantI S_ 32 0#32))) (addi src (broadcastInDim S600000 ![] bcast_S_S600000 (constantI S_ 32 50000#32))) src)))

/-- Entry `v`: the number of edges `e` with `dst e = v`, or 1 if there is none. -/
def degMax (dst : IVec S600000 32) : FVec Ideal S50000 .f32 :=
  maximumf (Host.scatterAdd scatter_S50000_S600000x1_S600000_n_0_0_1 (broadcastInDim S50000 ![] bcast_S_S50000 (constant (F := Ideal) S_ .f32 0x00000000#32)) (broadcastInDim S600000x1 ![0] bcast_S600000_S600000x1_0 dst) (broadcastInDim S600000 ![] bcast_S_S600000 (constant (F := Ideal) S_ .f32 0x3F800000#32))) (broadcastInDim S50000 ![] bcast_S_S50000 (constant (F := Ideal) S_ .f32 0x3F800000#32))

/-- The layer: `max (([h | msg / dmax]·W1 + b1)·W2 + b2) 0`, the quotient row by row. -/
def layerOut (h msg : FVec Ideal S50000x128 .f32) (dmax : FVec Ideal S50000 .f32) (W1 : FVec Ideal S256x256 .f32)
    (b1 : FVec Ideal S256 .f32) (W2 : FVec Ideal S256x128 .f32) (b2 : FVec Ideal S128 .f32) : FVec Ideal S50000x128 .f32 :=
  maximumf (addf (Host.dotGeneral dot_S50000x256_S256x128_S50000x128_1_0_0_1_n_n none (addf (Host.dotGeneral dot_S50000x256_S256x256_S50000x256_1_0_0_1_n_n none (concatenate S50000x256 1 [⟨S50000x128, h⟩, ⟨S50000x128, (Host.divf msg (broadcastInDim S50000x128 ![0, 1] bcast_S50000x1_S50000x128_0_1 (broadcastInDim S50000x1 ![0] bcast_S50000_S50000x1_0 dmax)))⟩] concatenates_S50000x128_S50000x128_S50000x256_d1) W1) (broadcastInDim S50000x256 ![0, 1] bcast_S1x256_S50000x256_0_1 (broadcastInDim S1x256 ![1] bcast_S256_S1x256_1 b1))) W2) (broadcastInDim S50000x128 ![0, 1] bcast_S1x128_S50000x128_0_1 (broadcastInDim S1x128 ![1] bcast_S128_S1x128_1 b2))) (broadcastInDim S50000x128 ![] bcast_S_S50000x128 (constant (F := Ideal) S_ .f32 0x00000000#32))

/-- The word of the float 1 denotes the real 1. -/
theorem ofBits_one : Ideal.ofBits .f32 0x3F800000#32 = 1 := by
  simp [Ideal.ofBits, Ideal.ieee, -EReal.coe_mul]; norm_num

/-- A clamped degree is at least 1, so it is not zero. -/
theorem degMax_ne_zero (dst : IVec S600000 32) (v : S50000.Idx) : degMax dst v ≠ 0 := by
  have h1 : (1 : EReal) ≤ degMax dst v := by
    show (1 : EReal) ≤ max _ (Ideal.ofBits .f32 0x3F800000#32)
    rw [ofBits_one]
    exact le_max_right _ _
  exact (lt_of_lt_of_le zero_lt_one h1).ne'

end Cert.Layer

end
-- ==== Proof.KernelRows.lean ====
/-
  What the kernel body stores at one grid point is a row block of the layer's output.

  The body reads 2000 rows of `h`, the same 2000 rows of the aggregated messages and of the column of reciprocal
  degrees, and the whole of the two halves of `W1`, of `b1`, `W2` and `b2`. Every operation of the layer computes row `r`
  of its result from rows `r` of its matrix operands, so the stored 2000 rows are rows `2000·t, …` of
  `layerOut`. Two steps are more than a relabelling:
    * the body multiplies the messages by `1/d` where the layer divides them by `d` (equal because `d ≠ 0`);
    * the body adds `h·W1[0:128]` and `mean·W1[128:256]` where the layer multiplies `[h | mean]` by `W1`.
  The changes of float format in the body are the identity on extended reals.
-/
import proofs.«126599_j50448685859138_1_alg».proof.Proof.Gen.KernelIdeal.Skeleton
import proofs.«126599_j50448685859138_1_alg».proof.Proof.LibRowMean
import proofs.«126599_j50448685859138_1_alg».proof.Proof.Layer

noncomputable section

namespace Cert.KernelRows

open Cert.KernelIdeal Cert.KernelIdeal.Gen Cert.RowBlock Idealize.ShloMosaic Idealize.ShloMosaic.ValueIdx

/-- The constant vector of ones the reciprocals are taken of. -/
abbrev ones : FVec Ideal S50000 .f32 := broadcastInDim S50000 ![] bcast_S_S50000 (constant (F := Ideal) S_ .f32 0x3F800000#32)

/-- The column of reciprocal degrees, as the kernel's host code lays it out: `1/d` entry by entry, then a column. -/
abbrev invCol (dmax : FVec Ideal S50000 .f32) : FVec Ideal S50000x1 .f32 :=
  shapeCast S50000x1 (Host.divf ones dmax) shapeCasts_S50000_S50000x1

/-- The two products of the first affine map share these dimension numbers, and the second has its own; all are plain. -/
theorem plain1 : IsRows.Plain dot_S2000x128_S128x256_S2000x256_1_0_0_1_n_n 1 0 0 1 := ⟨rfl, rfl, rfl, rfl, rfl, rfl⟩
theorem plain2 : IsRows.Plain dot_S2000x256_S256x128_S2000x128_1_0_0_1_n_n 1 0 0 1 := ⟨rfl, rfl, rfl, rfl, rfl, rfl⟩
theorem plainR1 : IsRows.Plain Cert.ReferenceIdeal.dot_S50000x256_S256x256_S50000x256_1_0_0_1_n_n 1 0 0 1 := ⟨rfl, rfl, rfl, rfl, rfl, rfl⟩
theorem plainR2 : IsRows.Plain Cert.ReferenceIdeal.dot_S50000x256_S256x128_S50000x128_1_0_0_1_n_n 1 0 0 1 := ⟨rfl, rfl, rfl, rfl, rfl, rfl⟩

/-- The payload of the body's one store, on row blocks `x0`, `x1`, `x2` of `h`, of the messages and of the reciprocal
    column and on the whole weight arrays `x3 … x7` as the host code prepares them (the two halves of `W1`, `b1` and `b2`
    as one-row matrices, `W2` itself), is the row block of the layer's output. -/
theorem pay_rows (t : Nat) (h msg : FVec Ideal S50000x128 .f32) (dmax : FVec Ideal S50000 .f32)
    (W1 : FVec Ideal S256x256 .f32) (b1 : FVec Ideal S256 .f32) (W2 : FVec Ideal S256x128 .f32) (b2 : FVec Ideal S128 .f32)
    (hd : ∀ v, dmax v ≠ 0)
    (x0 x1 : Vec Ideal S2000x128 .f32) (x2 : Vec Ideal S2000x1 .f32) (x3 x4 : Vec Ideal S128x256 .f32)
    (x5 : Vec Ideal S1x256 .f32) (x6 : Vec Ideal S256x128 .f32) (x7 : Vec Ideal S1x128 .f32)
    (H0 : IsRows 2000 t h x0) (H1 : IsRows 2000 t msg x1) (H2 : IsRows 2000 t (invCol dmax) x2)
    (e3 : x3 = extractStridedSlice S128x256 ![0, 0] W1 slices_S256x256_S128x256_0_0)
    (e4 : x4 = extractStridedSlice S128x256 ![128, 0] W1 slices_S256x256_S128x256_128_0)
    (e5 : x5 = shapeCast S1x256 b1 shapeCasts_S256_S1x256) (e6 : x6 = W2) (e7 : x7 = shapeCast S1x128 b2 shapeCasts_S128_S1x128) :
    IsRows 2000 t (Cert.Layer.layerOut h msg dmax W1 b1 W2 b2) (k0_pay1 (F := Ideal) x0 x1 x2 x3 x4 x5 x6 x7) := by
  subst e3 e4 e5 e6 e7
  unfold Cert.Layer.layerOut k0_pay1
  dsimp only
  simp only [shapeCast_self]
  refine IsRows.maxf (IsRows.add (IsRows.dot (IsRows.trunc (IsRows.add ?first (IsRows.bias b1 _ _ _ _)) _) _ _ plainR2 plain2 x6 _ fun _ _ => rfl)
    (IsRows.bias b2 _ _ _ _)) (IsRows.splat .f32 _ _)
  refine IsRows.dot_concat2 (K := 128) rfl (IsRows.trunc H0 _)
    (IsRows.trunc (IsRows.div_col H1 dmax ones hd (fun _ => Cert.Layer.ofBits_one) _ H2 _ _ _) _) _ _ _ plainR1 plain1 W1 _ _ ?_ ?_
  · exact fun k k' j hk => slice2_axis0_apply 0 W1 slices_S256x256_S128x256_0_0 k j k' (by rw [hk, Nat.zero_add])
  · exact fun k k' j hk => slice2_axis0_apply 128 W1 slices_S256x256_S128x256_128_0 k j k' hk

end Cert.KernelRows

end
-- ==== Proof.KernelArray.lean ====
/-
  From what each grid point stores to the whole output array.

  The grid has 25 points; point `t` reads rows `2000·t, …, 2000·t + 1999` of `h`, of the aggregated messages and of the
  column of reciprocal degrees, reads the weight arrays whole, and writes rows `2000·t, …` of the output. The host code
  before the launch computes the messages, the reciprocal column, the two halves of `W1` and the one-row forms of the
  biases; each is read back here as the function of the argument arrays it is. Since the stored block is the row block of
  `layerOut` (the payload lemma) and the 25 row blocks tile the 50000 rows (row `r` lies in block `r / 2000`), the output
  array ends holding `layerOut` of the arguments.
-/
import proofs.«126599_j50448685859138_1_alg».proof.Proof.Gen.KernelIdeal.Value
import proofs.«126599_j50448685859138_1_alg».proof.Proof.KernelRows
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen Cert.RowBlock Idealize.ShloMosaic.StableHlo

variable (m : (ℓ : Loc nD τ sig) → Buf (Elt Ideal) ℓ) (ρ : Dev nD → PrngReg)

/-! ## The arguments as launched, and the result -/

abbrev aH (c : Dev nD) : FVec Ideal S50000x128 .f32 := m ((c : Thread nD τ).loc main_arg0)
abbrev aSrc (c : Dev nD) : IVec S600000 32 := m ((c : Thread nD τ).loc main_arg1)
abbrev aDst (c : Dev nD) : IVec S600000 32 := m ((c : Thread nD τ).loc main_arg2)
abbrev aW1 (c : Dev nD) : FVec Ideal S256x256 .f32 := m ((c : Thread nD τ).loc main_arg3)
abbrev ab1 (c : Dev nD) : FVec Ideal S256 .f32 := m ((c : Thread nD τ).loc main_arg4)
abbrev aW2 (c : Dev nD) : FVec Ideal S256x128 .f32 := m ((c : Thread nD τ).loc main_arg5)
abbrev ab2 (c : Dev nD) : FVec Ideal S128 .f32 := m ((c : Thread nD τ).loc main_arg6)

/-- The aggregated messages and the clamped degrees of the arguments. -/
abbrev aMsg (c : Dev nD) : FVec Ideal S50000x128 .f32 := Cert.Layer.msgSum (aH m c) (aSrc m c) (aDst m c)
abbrev aDeg (c : Dev nD) : FVec Ideal S50000 .f32 := Cert.Layer.degMax (aDst m c)

/-- What the output array ends holding: the layer of the argument arrays. -/
abbrev result (c : Dev nD) : FVec Ideal S50000x128 .f32 :=
  Cert.Layer.layerOut (aH m c) (aMsg m c) (aDeg m c) (aW1 m c) (ab1 m c) (aW2 m c) (ab2 m c)

/-! ## What the host code before the launch leaves in the arrays the kernel reads -/

theorem V_msg (c : Dev nD) : (V m c main_v9 : S50000x128.Idx → EReal) = aMsg m c := by
  dsimp only [V, hostOps0]
  after_results
  rfl

theorem V_inv (c : Dev nD) : (V m c main_v18 : S50000x1.Idx → EReal) = Cert.KernelRows.invCol (aDeg m c) := by
  dsimp only [V, hostOps0]
  after_results
  rfl

theorem V_w1h (c : Dev nD) : (V m c main_v19 : S128x256.Idx → EReal)
    = extractStridedSlice S128x256 ![0, 0] (aW1 m c) slices_S256x256_S128x256_0_0 := by
  dsimp only [V, hostOps0]
  after_results

theorem V_w1hn (c : Dev nD) : (V m c main_v20 : S128x256.Idx → EReal)
    = extractStridedSlice S128x256 ![128, 0] (aW1 m c) slices_S256x256_S128x256_128_0 := by
  dsimp only [V, hostOps0]
  after_results

theorem V_b1 (c : Dev nD) : (V m c main_v21 : S1x256.Idx → EReal) = shapeCast S1x256 (ab1 m c) shapeCasts_S256_S1x256 := by
  dsimp only [V, hostOps0]
  after_results
  rfl

theorem V_b2 (c : Dev nD) : (V m c main_v22 : S1x128.Idx → EReal) = shapeCast S1x128 (ab2 m c) shapeCasts_S128_S1x128 := by
  dsimp only [V, hostOps0]
  after_results
  rfl

/-! ## The windows' blocks -/

/-- The printed index maps over the grid: the three row-tiled inputs and the output are at block row `t`, the weight
    windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 25 := Nat.lt_of_lt_of_eq t.isLt N_0

/-- Window 0's block at point `t` is rows `2000·t, …` of `h`. -/
theorem rows_h (c : Dev nD) (t : Fin cfg0.N) : IsRows 2000 t.val (aH m c) (iblk m c 0 t : Vec Ideal S2000x128 .f32) := by
  intro p j r hr
  obtain ⟨e0, e1, -⟩ := idx_facts t
  unfold iblk
  rw [View.read_apply]
  show V m c main_arg0 _ = aH m c (ix2 r j)
  rw [V_main_arg0]
  refine congrArg (aH m c) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * j.val = j.val; rw [e1]; omega

/-- Window 1's block at point `t` is rows `2000·t, …` of the aggregated messages. -/
theorem rows_msg (c : Dev nD) (t : Fin cfg0.N) : IsRows 2000 t.val (aMsg m c) (iblk m c 1 t : Vec Ideal S2000x128 .f32) := by
  intro p j r hr
  obtain ⟨-, -, e0, e1, -⟩ := idx_facts t
  unfold iblk
  rw [View.read_apply, ← V_msg]
  show V m c main_v9 _ = V m c main_v9 (ix2 r j)
  refine congrArg (V m c main_v9) ?_
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * j.val = j.val; rw [e1]; omega

/-- Window 2's block at point `t` is rows `2000·t, …` of the column of reciprocal degrees. -/
theorem rows_inv (c : Dev nD) (t : Fin cfg0.N) :
    IsRows 2000 t.val (Cert.KernelRows.invCol (aDeg m c)) (iblk m c 2 t : Vec Ideal S2000x1 .f32) := by
  intro p j r hr
  obtain ⟨-, -, -, -, e0, e1, -⟩ := idx_facts t
  unfold iblk
  rw [View.read_apply, ← V_inv]
  show V m c main_v18 _ = V m c main_v18 (ix2 r j)
  refine congrArg (V m c main_v18) ?_
  funext a
  apply Fin.ext
  match a with
  | ⟨0, _⟩ => show win0_2.index t (0 : Fin 2) * 2000 + 1 * p.val = r.val; rw [e0, hr]; omega
  | ⟨1, _⟩ => show win0_2.index t (1 : Fin 2) * 1 + 1 * j.val = j.val; rw [e1]; omega

/-- The weight windows' one block is their whole array, at every point. -/
theorem blk_w1h (c : Dev nD) (t : Fin cfg0.N) : (iblk m c 3 t : Vec Ideal S128x256 .f32)
    = extractStridedSlice S128x256 ![0, 0] (aW1 m c) slices_S256x256_S128x256_0_0 := by
  obtain ⟨-, -, -, -, -, -, e0, e1, -⟩ := idx_facts t
  rw [← V_w1h]
  unfold iblk
  funext y
  rw [View.read_apply]
  show V m c main_v19 _ = V m c main_v19 y
  refine congrArg (V m c main_v19) ?_
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

theorem blk_w1hn (c : Dev nD) (t : Fin cfg0.N) : (iblk m c 4 t : Vec Ideal S128x256 .f32)
    = extractStridedSlice S128x256 ![128, 0] (aW1 m c) slices_S256x256_S128x256_128_0 := by
  obtain ⟨-, -, -, -, -, -, -, -, e0, e1, -⟩ := idx_facts t
  rw [← V_w1hn]
  unfold iblk
  funext y
  rw [View.read_apply]
  show V m c main_v20 _ = V m c main_v20 y
  refine congrArg (V m c main_v20) ?_
  funext a
  apply Fin.ext
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

theorem blk_b1 (c : Dev nD) (t : Fin cfg0.N) : (iblk m c 5 t : Vec Ideal S1x256 .f32)
    = shapeCast S1x256 (ab1 m c) shapeCasts_S256_S1x256 := by
  obtain ⟨-, -, -, -, -, -, -, -, -, -, e0, e1, -⟩ := idx_facts t
  rw [← V_b1]
  unfold iblk
  funext y
  rw [View.read_apply]
  show V m c main_v21 _ = V m c main_v21 y
  refine congrArg (V m c main_v21) ?_
  funext a
  apply Fin.ext
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

theorem blk_w2 (c : Dev nD) (t : Fin cfg0.N) : (iblk m c 6 t : Vec Ideal S256x128 .f32) = aW2 m c := by
  obtain ⟨-, -, -, -, -, -, -, -, -, -, -, -, e0, e1, -⟩ := idx_facts t
  unfold iblk
  funext y
  rw [View.read_apply]
  show V m c main_arg5 _ = aW2 m c y
  rw [V_main_arg5]
  refine congrArg (aW2 m c) ?_
  funext a
  apply Fin.ext
  match a with
  | ⟨0, _⟩ => show win0_6.index t (0 : Fin 2) * 256 + 1 * (y 0).val = (y 0).val; rw [e0]; omega
  | ⟨1, _⟩ => show win0_6.index t (1 : Fin 2) * 128 + 1 * (y 1).val = (y 1).val; rw [e1]; omega

theorem blk_b2 (c : Dev nD) (t : Fin cfg0.N) : (iblk m c 7 t : Vec Ideal S1x128 .f32)
    = shapeCast S1x128 (ab2 m c) shapeCasts_S128_S1x128 := by
  obtain ⟨-, -, -, -, -, -, -, -, -, -, -, -, -, -, e0, e1, -⟩ := idx_facts t
  rw [← V_b2]
  unfold iblk
  funext y
  rw [View.read_apply]
  show V m c main_v22 _ = V m c main_v22 y
  refine congrArg (V m c main_v22) ?_
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## What a point writes back, the cover, the array -/

theorem hz : (![0, 0] : Fin 2 → Nat) = fun _ => 0 := funext fun a => by fin_cases a <;> rfl

/-- Point `t` writes back block `t` of the layer's output. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz]
  simp only [View.ld_unit_zero (S := S2000x128) hz, View.ld_unit_zero (S := S2000x1) hz, View.ld_unit_zero (S := S128x256) hz,
    View.ld_unit_zero (S := S1x256) hz, View.ld_unit_zero (S := S256x128) hz, View.ld_unit_zero (S := S1x128) hz]
  have key := Cert.KernelRows.pay_rows t.val (aH m c) (aMsg m c) (aDeg m c) (aW1 m c) (ab1 m c) (aW2 m c) (ab2 m c)
    (Cert.Layer.degMax_ne_zero (aDst m c)) (iblk m c 0 t) (iblk m c 1 t) (iblk m c 2 t) (iblk m c 3 t) (iblk m c 4 t)
    (iblk m c 5 t) (iblk m c 6 t) (iblk m c 7 t) (rows_h m c t) (rows_msg m c t) (rows_inv m c t) (blk_w1h m c t)
    (blk_w1hn m c t) (blk_b1 m c t) (blk_w2 m c t) (blk_b2 m c t)
  obtain ⟨-, -, -, -, -, -, -, -, -, -, -, -, -, -, -, -, e0, e1⟩ := idx_facts t
  have ht := t_lt t
  funext y
  obtain ⟨p, j, rfl⟩ : ∃ (p : Fin 2000) (j : Fin 128), y = ix2 p j := ⟨y 0, y 1, eq_ix2 y⟩
  have hr : 2000 * t.val + p.val < 50000 := by have := p.isLt; omega
  refine (key p j ⟨2000 * t.val + p.val, hr⟩ rfl).trans ?_
  rw [View.read_apply]
  refine congrArg (result m c) ?_
  funext a
  apply Fin.ext
  match a with
  | ⟨0, _⟩ => show 2000 * t.val + p.val = win0_8.index t (0 : Fin 2) * 2000 + 1 * p.val; rw [e0]; omega
  | ⟨1, _⟩ => show j.val = win0_8.index t (1 : Fin 2) * 128 + 1 * j.val; rw [e1]; omega

/-- An index of the output array is in point `t`'s block iff each coordinate is in the block's range on its axis. -/
theorem mem_blk (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v23).slice (win0_8.rect t)).set ↔ _
  rw [View.set_slice_whole, Rect.mem_set_unit]
  exact Iff.rfl

/-- Row `r` of the output lies in the block of point `r / 2000`: the 25 blocks cover the array. -/
theorem cover (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, -, -, -, -, -, -, -, -, -, e0, e1⟩ := idx_facts t
  have e0' : win0_8.index t (0 : Fin 2) = (i 0).val / 2000 := e0
  refine ⟨t, flush0_8 t, ?_⟩
  rw [mem_blk]
  intro a
  match a with
  | ⟨0, _⟩ =>
    show win0_8.index t (0 : Fin 2) * 2000 ≤ (i 0).val ∧ (i 0).val < win0_8.index t (0 : Fin 2) * 2000 + 2000
    rw [e0']; omega
  | ⟨1, _⟩ =>
    show win0_8.index t (1 : Fin 2) * 128 ≤ (i 1).val ∧ (i 1).val < win0_8.index t (1 : Fin 2) * 128 + 128
    rw [e1]; omega

/-- The output array after the run is the layer of the argument arrays. -/
theorem final (c : Dev nD) : (dats m 0 c).arrAt 8 cfg0.N = result m c :=
  (dats m 0 c).arrAt_eq_of_cover 8 (result m c) (fun t _ => flushed_eq m c t) cover

/-- The kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelArray

end
-- ==== Proof.lean ====
/-
  One layer of mean aggregation over a graph (50000 nodes of 128 features, 600000 edges), two affine maps and a rectifier:
  a kernel that tiles the nodes in 25 blocks of 2000 rows, against the plain array program.

  Both programs first sum, into each node, the feature rows carried by its incoming edges (`msg`) and count those edges
  (`deg`), by the same operations. They differ in two places, and agree on the extended reals in both:
    * the mean. The array program divides `msg` row by row by `d = max deg 1`; the kernel's host code forms the column
      `1/d` and the kernel multiplies by it. As `d ≥ 1` it is not zero, so both are the product with `d⁻¹`; no
      finiteness is used.
    * the first affine map. The array program multiplies `[h | mean]` (256 columns) by `W1`; the kernel adds
      `h·W1[0:128]` and `mean·W1[128:256]`: the sum over 256 columns split in two.
  Everything else (the bias rows, the second product, the rectifier) is the same operation on both sides, and a row of
  the result depends on the same row of `h`, `msg` and `1/d` only, which is why a block of 2000 rows can be computed from
  the blocks of those rows. The kernel's changes of float format are the identity at the exact instance.

  `Layer` names the result as one function of the arrays; `KernelRows` shows what a grid point stores is the row block
  of it; `KernelArray` reads the host code before the launch, each window's block, and assembles the 25 blocks into the
  array. The precondition (finite float inputs) is not needed by any of it. The three frames are the generated ones.
-/
import proofs.«126599_j50448685859138_1_alg».proof.Defs
import proofs.«126599_j50448685859138_1_alg».proof.Proof.Gen.Kernel
import proofs.«126599_j50448685859138_1_alg».proof.Proof.Gen.Kernel.Skeleton
import proofs.«126599_j50448685859138_1_alg».proof.Proof.Gen.Kernel.Launch
import proofs.«126599_j50448685859138_1_alg».proof.Proof.Gen.Kernel.Points
import proofs.«126599_j50448685859138_1_alg».proof.Proof.Gen.Kernel.Frame
import proofs.«126599_j50448685859138_1_alg».proof.Proof.Gen.KernelIdeal
import proofs.«126599_j50448685859138_1_alg».proof.Proof.Gen.KernelIdeal.Skeleton
import proofs.«126599_j50448685859138_1_alg».proof.Proof.Gen.KernelIdeal.Launch
import proofs.«126599_j50448685859138_1_alg».proof.Proof.Gen.KernelIdeal.Points
import proofs.«126599_j50448685859138_1_alg».proof.Proof.Gen.KernelIdeal.Frame
import proofs.«126599_j50448685859138_1_alg».proof.Proof.Gen.ReferenceIdeal
import proofs.«126599_j50448685859138_1_alg».proof.Proof.Gen.Pre_finite_inputs
import proofs.«126599_j50448685859138_1_alg».proof.Proof.Gen.KernelIdeal.Value
import proofs.«126599_j50448685859138_1_alg».proof.Proof.Gen.ReferenceIdeal.Run
import proofs.«126599_j50448685859138_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The array program has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result array at the layer of the (agreeing) arguments: the kernel's by the 25 row blocks, the
    array program's because its composed term is that function spelt out. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
